-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S800000 : Shape := ⟨1, ![800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x1 .f32) (main_arg4 : FVec F S1 .f32) (main_arg5 : IVec S800000 32) (main_arg6 : IVec S800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S800000 : Shape := ⟨1, ![800000]⟩
abbrev S1x128 : Shape := ⟨2, ![1, 128]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S25000x128 : Shape := ⟨2, ![25000, 128]⟩
abbrev S25000 : Shape := ⟨1, ![25000]⟩
abbrev S25000x1 : Shape := ⟨2, ![25000, 1]⟩
abbrev S100000 : Shape := ⟨1, ![100000]⟩
abbrev S100000x1 : Shape := ⟨2, ![100000, 1]⟩
abbrev S1x1 : Shape := ⟨2, ![1, 1]⟩
abbrev S5000x1 : Shape := ⟨2, ![5000, 1]⟩

abbrev nBuf : Space → Nat
  | .hbm => 115
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S1, .f32⟩
  | .hbm, ⟨5, _⟩ => ⟨S800000, .i32⟩
  | .hbm, ⟨6, _⟩ => ⟨S800000, .i32⟩
  | .hbm, ⟨7, _⟩ => ⟨S1x128, .f32⟩
  | .hbm, ⟨8, _⟩ => ⟨S100000x128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S25000x128, .f32⟩
  | .hbm, ⟨20, _⟩ => ⟨S800000x1, .i32⟩
  | .hbm, ⟨21, _⟩ => ⟨S25000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S25000, .f32⟩
  | .hbm, ⟨26, _⟩ => ⟨S800000x1, .i32⟩
  | .hbm, ⟨27, _⟩ => ⟨S25000, .f32⟩
  | .hbm, ⟨28, _⟩ => ⟨S_, .f32⟩
  | .hbm, ⟨29, _⟩ => ⟨S25000, .f32⟩
  | .hbm, ⟨30, _⟩ => ⟨S25000, .f32⟩
  | .hbm, ⟨31, _⟩ => ⟨S25000x1, .f32⟩
  | .hbm, ⟨32, _⟩ => ⟨S25000x128, .f32⟩
  | .hbm, ⟨33, _⟩ => ⟨S25000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .f32⟩
  | .hbm, ⟨44, _⟩ => ⟨S100000x128, .f32⟩
  | .hbm, ⟨45, _⟩ => ⟨S800000x1, .i32⟩
  | .hbm, ⟨46, _⟩ => ⟨S100000x128, .f32⟩
  | .hbm, ⟨47, _⟩ => ⟨S_, .f32⟩
  | .hbm, ⟨48, _⟩ => ⟨S800000, .f32⟩
  | .hbm, ⟨49, _⟩ => ⟨S_, .f32⟩
  | .hbm, ⟨50, _⟩ => ⟨S100000, .f32⟩
  | .hbm, ⟨51, _⟩ => ⟨S800000x1, .i32⟩
  | .hbm, ⟨52, _⟩ => ⟨S100000, .f32⟩
  | .hbm, ⟨53, _⟩ => ⟨S_, .f32⟩
  | .hbm, ⟨54, _⟩ => ⟨S100000, .f32⟩
  | .hbm, ⟨55, _⟩ => ⟨S100000, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S_, .f32⟩
  | .hbm, ⟨69, _⟩ => ⟨S25000x128, .f32⟩
  | .hbm, ⟨70, _⟩ => ⟨S800000x1, .i32⟩
  | .hbm, ⟨71, _⟩ => ⟨S25000x128, .f32⟩
  | .hbm, ⟨72, _⟩ => ⟨S_, .f32⟩
  | .hbm, ⟨73, _⟩ => ⟨S800000, .f32⟩
  | .hbm, ⟨74, _⟩ => ⟨S_, .f32⟩
  | .hbm, ⟨75, _⟩ => ⟨S25000, .f32⟩
  | .hbm, ⟨76, _⟩ => ⟨S800000x1, .i32⟩
  | .hbm, ⟨77, _⟩ => ⟨S25000, .f32⟩
  | .hbm, ⟨78, _⟩ => ⟨S_, .f32⟩
  | .hbm, ⟨79, _⟩ => ⟨S25000, .f32⟩
  | .hbm, ⟨80, _⟩ => ⟨S25000, .f32⟩
  | .hbm, ⟨81, _⟩ => ⟨S25000x1, .f32⟩
  | .hbm, ⟨82, _⟩ => ⟨S25000x128, .f32⟩
  | .hbm, ⟨83, _⟩ => ⟨S25000x128, .f32⟩
  | .hbm, ⟨84, _⟩ => ⟨S1x1, .f32⟩
  | .hbm, ⟨85, _⟩ => ⟨S25000x1, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x1, .f32⟩
  | .hbm, ⟨95, _⟩ => ⟨S_, .i32⟩
  | .hbm, ⟨96, _⟩ => ⟨S800000, .i32⟩
  | .hbm, ⟨97, _⟩ => ⟨S800000, .i1⟩
  | .hbm, ⟨98, _⟩ => ⟨S_, .i32⟩
  | .hbm, ⟨99, _⟩ => ⟨S800000, .i32⟩
  | .hbm, ⟨100, _⟩ => ⟨S800000, .i32⟩
  | .hbm, ⟨101, _⟩ => ⟨S800000, .i32⟩
  | .hbm, ⟨102, _⟩ => ⟨S800000x1, .i32⟩
  | .hbm, ⟨103, _⟩ => ⟨S800000x128, .f32⟩
  | .hbm, ⟨104, _⟩ => ⟨S800000x128, .f32⟩
  | .hbm, ⟨105, _⟩ => ⟨S800000x128, .f32⟩
  | .hbm, ⟨106, _⟩ => ⟨S_, .f32⟩
  | .hbm, ⟨107, _⟩ => ⟨S100000x128, .f32⟩
  | .hbm, ⟨108, _⟩ => ⟨S800000x1, .i32⟩
  | .hbm, ⟨109, _⟩ => ⟨S100000x128, .f32⟩
  | .hbm, ⟨110, _⟩ => ⟨S_, .f32⟩
  | .hbm, ⟨111, _⟩ => ⟨S100000x1, .f32⟩
  | .hbm, ⟨112, _⟩ => ⟨S800000x1, .i32⟩
  | .hbm, ⟨113, _⟩ => ⟨S100000x1, .f32⟩
  | .hbm, ⟨114, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x1, .f32⟩
  | .local _ .vmem, ⟨9, _⟩ => ⟨S1x1, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_10 : Ref sig .tc := ⟨.hbm, 59, rfl⟩
abbrev main_v40 : Ref sig .tc := ⟨.hbm, 60, rfl⟩
abbrev main_v41 : Ref sig .tc := ⟨.hbm, 61, rfl⟩
abbrev main_c_11 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_12 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_15 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_16 : Ref sig .tc := ⟨.hbm, 86, rfl⟩
abbrev main_v61 : Ref sig .tc := ⟨.hbm, 87, rfl⟩
abbrev main_v62 : Ref sig .tc := ⟨.hbm, 88, rfl⟩
abbrev main_c_17 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_18 : Ref sig .tc := ⟨.hbm, 95, rfl⟩
abbrev main_v68 : Ref sig .tc := ⟨.hbm, 96, rfl⟩
abbrev main_v69 : Ref sig .tc := ⟨.hbm, 97, rfl⟩
abbrev main_c_19 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_20 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_21 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S_S25000x128 : S_.BroadcastsInDim S25000x128 (![] : Fin 0 → Fin S25000x128.rank)
  bcast_S_S25000 : S_.BroadcastsInDim S25000 (![] : Fin 0 → Fin S25000.rank)
  bcast_S25000_S25000x1_0 : S25000.BroadcastsInDim S25000x1 (![0] : Fin 1 → Fin S25000x1.rank)
  bcast_S25000x1_S25000x128_0_1 : S25000x1.BroadcastsInDim S25000x128 (![0, 1] : Fin 2 → Fin S25000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S1_S1x1 : S1.ShapeCasts S1x1
  shapeCasts_S5000x128_S5000x128 : S5000x128.ShapeCasts S5000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  bcast_S800000x1_S800000x128_0_1 : S800000x1.BroadcastsInDim S800000x128 (![0, 1] : Fin 2 → Fin S800000x128.rank)
  bcast_S_S100000x1 : S_.BroadcastsInDim S100000x1 (![] : Fin 0 → Fin S100000x1.rank)
  shapeCasts_S5000x1_S5000x1 : S5000x1.ShapeCasts S5000x1
  broadcasts_S5000x1_S5000x128 : S5000x1.Broadcasts S5000x128
  dot_S5000x128_S128x128_S5000x128_1_0_0_1_n_n_wf : DotDims.WF S5000x128 S128x128 S5000x128 [1] [0] [0] [1] [] []
  gather_S100000x128_S800000x1_S800000x128_1_0_n_n_0_1_1128_wf : GatherDims.WF S100000x128 S800000x1 S800000x128 [1] [0] [] [0] [] 1 ![1, 128]
  scatter_S25000x128_S800000x1_S800000x128_1_0_0_1_wf : ScatterDims.WF S25000x128 S800000x1 S800000x128 [1] [0] [0] 1
  scatter_S25000_S800000x1_S800000_n_0_0_1_wf : ScatterDims.WF S25000 S800000x1 S800000 [] [0] [0] 1
  gather_S25000x128_S800000x1_S800000x128_1_0_n_n_0_1_1128_wf : GatherDims.WF S25000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S5000x128_S128x1_S5000x1_1_0_0_1_n_n_wf : DotDims.WF S5000x128 S128x1 S5000x1 [1] [0] [0] [1] [] []
  gather_S25000x1_S800000x1_S800000x1_1_0_n_n_0_1_11_wf : GatherDims.WF S25000x1 S800000x1 S800000x1 [1] [0] [] [0] [] 1 ![1, 1]
  scatter_S100000x1_S800000x1_S800000x1_1_0_0_1_wf : ScatterDims.WF S100000x1 S800000x1 S800000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S128x1.size a
  hwx1_1 : ∀ i : grid1.Coords, EltTy.bits .f32 = 32 ∨ (Rect.block (s := S128x1) S128x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S25000x1.size a
  hwx1_3 : ∀ i : grid1.Coords, EltTy.bits .f32 = 32 ∨ (Rect.block (s := S25000x1) S5000x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S25000x128_S800000x1_S800000x128_1_0_0_1 : ScatterDims S25000x128 S800000x1 S800000x128 where
  updateWindowDims := [1]
  insertedWindowDims := [0]
  scatterDimsToOperandDims := [0]
  indexVectorDim := 1
  wf := scatter_S25000x128_S800000x1_S800000x128_1_0_0_1_wf
def scatter_S25000_S800000x1_S800000_n_0_0_1 : ScatterDims S25000 S800000x1 S800000 where
  updateWindowDims := []
  insertedWindowDims := [0]
  scatterDimsToOperandDims := [0]
  indexVectorDim := 1
  wf := scatter_S25000_S800000x1_S800000_n_0_0_1_wf
def gather_S25000x128_S800000x1_S800000x128_1_0_n_n_0_1_1128 : GatherDims S25000x128 S800000x1 S800000x128 where
  offsetDims := [1]
  collapsedSliceDims := [0]
  operandBatchingDims := []
  startIndicesBatchingDims := []
  startIndexMap := [0]
  indexVectorDim := 1
  sliceSizes := ![1, 128]
  wf := gather_S25000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S25000x1_S800000x1_S800000x1_1_0_n_n_0_1_11 : GatherDims S25000x1 S800000x1 S800000x1 where
  offsetDims := [1]
  collapsedSliceDims := [0]
  operandBatchingDims := []
  startIndicesBatchingDims := []
  startIndexMap := [0]
  indexVectorDim := 1
  sliceSizes := ![1, 1]
  wf := gather_S25000x1_S800000x1_S800000x1_1_0_n_n_0_1_11_wf
def scatter_S100000x1_S800000x1_S800000x1_1_0_0_1 : ScatterDims S100000x1 S800000x1 S800000x1 where
  updateWindowDims := [1]
  insertedWindowDims := [0]
  scatterDimsToOperandDims := [0]
  indexVectorDim := 1
  wf := scatter_S100000x1_S800000x1_S800000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v58) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S5000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v79) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v82) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v83) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S25000x128 : Shape := ⟨2, ![25000, 128]⟩
abbrev S25000 : Shape := ⟨1, ![25000]⟩
abbrev S25000x1 : Shape := ⟨2, ![25000, 1]⟩
abbrev S100000 : Shape := ⟨1, ![100000]⟩
abbrev S100000x1 : Shape := ⟨2, ![100000, 1]⟩
abbrev S1x1 : Shape := ⟨2, ![1, 1]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x1, .f32⟩
  | 4 => ⟨S1, .f32⟩
  | 5 => ⟨S800000, .i32⟩
  | 6 => ⟨S800000, .i32⟩
  | 7 => ⟨S100000x128, .f32⟩
  | 8 => ⟨S1x128, .f32⟩
  | 9 => ⟨S100000x128, .f32⟩
  | 10 => ⟨S100000x128, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S_, .f32⟩
  | 21 => ⟨S25000x128, .f32⟩
  | 22 => ⟨S800000x1, .i32⟩
  | 23 => ⟨S25000x128, .f32⟩
  | 24 => ⟨S_, .f32⟩
  | 25 => ⟨S800000, .f32⟩
  | 26 => ⟨S_, .f32⟩
  | 27 => ⟨S25000, .f32⟩
  | 28 => ⟨S800000x1, .i32⟩
  | 29 => ⟨S25000, .f32⟩
  | 30 => ⟨S_, .f32⟩
  | 31 => ⟨S25000, .f32⟩
  | 32 => ⟨S25000, .f32⟩
  | 33 => ⟨S25000x1, .f32⟩
  | 34 => ⟨S25000x128, .f32⟩
  | 35 => ⟨S25000x128, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S_, .f32⟩
  | 46 => ⟨S100000x128, .f32⟩
  | 47 => ⟨S800000x1, .i32⟩
  | 48 => ⟨S100000x128, .f32⟩
  | 49 => ⟨S_, .f32⟩
  | 50 => ⟨S800000, .f32⟩
  | 51 => ⟨S_, .f32⟩
  | 52 => ⟨S100000, .f32⟩
  | 53 => ⟨S800000x1, .i32⟩
  | 54 => ⟨S100000, .f32⟩
  | 55 => ⟨S_, .f32⟩
  | 56 => ⟨S100000, .f32⟩
  | 57 => ⟨S100000, .f32⟩
  | 58 => ⟨S100000x1, .f32⟩
  | 59 => ⟨S100000x128, .f32⟩
  | 60 => ⟨S100000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S_, .f32⟩
  | 71 => ⟨S25000x128, .f32⟩
  | 72 => ⟨S800000x1, .i32⟩
  | 73 => ⟨S25000x128, .f32⟩
  | 74 => ⟨S_, .f32⟩
  | 75 => ⟨S800000, .f32⟩
  | 76 => ⟨S_, .f32⟩
  | 77 => ⟨S25000, .f32⟩
  | 78 => ⟨S800000x1, .i32⟩
  | 79 => ⟨S25000, .f32⟩
  | 80 => ⟨S_, .f32⟩
  | 81 => ⟨S25000, .f32⟩
  | 82 => ⟨S25000, .f32⟩
  | 83 => ⟨S25000x1, .f32⟩
  | 84 => ⟨S25000x128, .f32⟩
  | 85 => ⟨S25000x128, .f32⟩
  | 86 => ⟨S25000x1, .f32⟩
  | 87 => ⟨S1x1, .f32⟩
  | 88 => ⟨S25000x1, .f32⟩
  | 89 => ⟨S25000x1, .f32⟩
  | 90 => ⟨S25000x1, .f32⟩
  | 91 => ⟨S25000x1, .f32⟩
  | 92 => ⟨S_, .f32⟩
  | 93 => ⟨S25000x1, .f32⟩
  | 94 => ⟨S25000x1, .f32⟩
  | 95 => ⟨S_, .f32⟩
  | 96 => ⟨S25000x1, .f32⟩
  | 97 => ⟨S25000x1, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x1, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x128, .f32⟩
  | 116 => ⟨S800000x128, .f32⟩
  | 117 => ⟨S800000x128, .f32⟩
  | 118 => ⟨S_, .f32⟩
  | 119 => ⟨S100000x128, .f32⟩
  | 120 => ⟨S800000x1, .i32⟩
  | 121 => ⟨S100000x128, .f32⟩
  | 122 => ⟨S_, .f32⟩
  | 123 => ⟨S100000x1, .f32⟩
  | 124 => ⟨S800000x1, .i32⟩
  | 125 => ⟨S100000x1, .f32⟩
  | 126 => ⟨S_, .f32⟩
  | 127 => ⟨S100000x1, .f32⟩
  | _ => ⟨S100000x128, .f32⟩

abbrev hbmTy0_1 (i : Nat) : BufTy := match i % 128 with
  | 0 => ⟨S100000x1, .f32⟩
  | 1 => ⟨S100000x128, .f32⟩
  | 2 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_10 : Ref sig .tc := ⟨.hbm, 61, rfl⟩
abbrev main_v42 : Ref sig .tc := ⟨.hbm, 62, rfl⟩
abbrev main_v43 : Ref sig .tc := ⟨.hbm, 63, rfl⟩
abbrev main_c_11 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_cst_14 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_15 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_16 : Ref sig .tc := ⟨.hbm, 92, rfl⟩
abbrev main_v67 : Ref sig .tc := ⟨.hbm, 93, rfl⟩
abbrev main_v68 : Ref sig .tc := ⟨.hbm, 94, rfl⟩
abbrev main_cst_17 : Ref sig .tc := ⟨.hbm, 95, rfl⟩
abbrev main_v69 : Ref sig .tc := ⟨.hbm, 96, rfl⟩
abbrev main_v70 : Ref sig .tc := ⟨.hbm, 97, rfl⟩
abbrev main_c_18 : Ref sig .tc := ⟨.hbm, 98, rfl⟩
abbrev main_v71 : Ref sig .tc := ⟨.hbm, 99, rfl⟩
abbrev main_v72 : Ref sig .tc := ⟨.hbm, 100, rfl⟩
abbrev main_c_19 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_20 : Ref sig .tc := ⟨.hbm, 107, rfl⟩
abbrev main_v78 : Ref sig .tc := ⟨.hbm, 108, rfl⟩
abbrev main_v79 : Ref sig .tc := ⟨.hbm, 109, rfl⟩
abbrev main_c_21 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_22 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_23 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_24 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S25000x128 : S_.BroadcastsInDim S25000x128 (![] : Fin 0 → Fin S25000x128.rank)
  bcast_S_S25000 : S_.BroadcastsInDim S25000 (![] : Fin 0 → Fin S25000.rank)
  bcast_S25000_S25000x1_0 : S25000.BroadcastsInDim S25000x1 (![0] : Fin 1 → Fin S25000x1.rank)
  bcast_S25000x1_S25000x128_0_1 : S25000x1.BroadcastsInDim S25000x128 (![0, 1] : Fin 2 → Fin S25000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1_S1x1_1 : S1.BroadcastsInDim S1x1 (![1] : Fin 1 → Fin S1x1.rank)
  bcast_S1x1_S25000x1_0_1 : S1x1.BroadcastsInDim S25000x1 (![0, 1] : Fin 2 → Fin S25000x1.rank)
  bcast_S_S25000x1 : S_.BroadcastsInDim S25000x1 (![] : Fin 0 → Fin S25000x1.rank)
  bcast_S800000x1_S800000x128_0_1 : S800000x1.BroadcastsInDim S800000x128 (![0, 1] : Fin 2 → Fin S800000x128.rank)
  bcast_S_S100000x1 : S_.BroadcastsInDim S100000x1 (![] : Fin 0 → Fin S100000x1.rank)
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S25000x128_S800000x1_S800000x128_1_0_0_1_wf : ScatterDims.WF S25000x128 S800000x1 S800000x128 [1] [0] [0] 1
  scatter_S25000_S800000x1_S800000_n_0_0_1_wf : ScatterDims.WF S25000 S800000x1 S800000 [] [0] [0] 1
  gather_S25000x128_S800000x1_S800000x128_1_0_n_n_0_1_1128_wf : GatherDims.WF S25000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S25000x128_S128x1_S25000x1_1_0_0_1_n_n_wf : DotDims.WF S25000x128 S128x1 S25000x1 [1] [0] [0] [1] [] []
  gather_S25000x1_S800000x1_S800000x1_1_0_n_n_0_1_11_wf : GatherDims.WF S25000x1 S800000x1 S800000x1 [1] [0] [] [0] [] 1 ![1, 1]
  scatter_S100000x1_S800000x1_S800000x1_1_0_0_1_wf : ScatterDims.WF S100000x1 S800000x1 S800000x1 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S25000x128_S800000x1_S800000x128_1_0_0_1 : ScatterDims S25000x128 S800000x1 S800000x128 where
  updateWindowDims := [1]
  insertedWindowDims := [0]
  scatterDimsToOperandDims := [0]
  indexVectorDim := 1
  wf := scatter_S25000x128_S800000x1_S800000x128_1_0_0_1_wf
def scatter_S25000_S800000x1_S800000_n_0_0_1 : ScatterDims S25000 S800000x1 S800000 where
  updateWindowDims := []
  insertedWindowDims := [0]
  scatterDimsToOperandDims := [0]
  indexVectorDim := 1
  wf := scatter_S25000_S800000x1_S800000_n_0_0_1_wf
def gather_S25000x128_S800000x1_S800000x128_1_0_n_n_0_1_1128 : GatherDims S25000x128 S800000x1 S800000x128 where
  offsetDims := [1]
  collapsedSliceDims := [0]
  operandBatchingDims := []
  startIndicesBatchingDims := []
  startIndexMap := [0]
  indexVectorDim := 1
  sliceSizes := ![1, 128]
  wf := gather_S25000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S25000x128_S128x1_S25000x1_1_0_0_1_n_n : DotDims S25000x128 S128x1 S25000x1 where
  lhsContracting := [1]
  rhsContracting := [0]
  lhsNonContracting := [0]
  rhsNonContracting := [1]
  lhsBatch := []
  rhsBatch := []
  wf := dot_S25000x128_S128x1_S25000x1_1_0_0_1_n_n_wf
def gather_S25000x1_S800000x1_S800000x1_1_0_n_n_0_1_11 : GatherDims S25000x1 S800000x1 S800000x1 where
  offsetDims := [1]
  collapsedSliceDims := [0]
  operandBatchingDims := []
  startIndicesBatchingDims := []
  startIndexMap := [0]
  indexVectorDim := 1
  sliceSizes := ![1, 1]
  wf := gather_S25000x1_S800000x1_S800000x1_1_0_n_n_0_1_11_wf
def scatter_S100000x1_S800000x1_S800000x1_1_0_0_1 : ScatterDims S100000x1 S800000x1 S800000x1 where
  updateWindowDims := [1]
  insertedWindowDims := [0]
  scatterDimsToOperandDims := [0]
  indexVectorDim := 1
  wf := scatter_S100000x1_S800000x1_S800000x1_1_0_0_1_wf

class Facts : Prop extends Facts₀ where

variable [Facts]
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.LibDenseLayer.lean ====
/-
  ONE DENSE LAYER ON A BLOCK OF ROWS, SET BESIDE THE SAME LAYER ON THE WHOLE ARRAY, READ AT ONE ENTRY.

  A dense layer sends a row x of K numbers to the row  q ↦ (Σ_k x_k · w(k, q)) + c(0, q),  optionally followed by the
  rectifier max(·, 0). It acts on every row by itself. So if row p of a block [n, K] is row r of an array [N, K], then
  entry (p, q) of the layer applied to the block is entry (r, q) of the layer applied to the array:

  * product_entry: the matrix unit's product into a zero accumulator, both operands narrowed on the way in, against
    the host's product (a change of float format is the identity on the extended reals, and both products are the
    sum over k of left (row, k) · right (k, q), in the same order);
  * hidden_entry: product, bias row broadcast down the rows, rectifier;
  * out_entry: product and bias row only.

  The bias is a 1 x b row on both sides; the block broadcasts it as a vector broadcast, the array along its two axes.
  Generic in the extents; a program's dimension numbers enter through an equation with the plain rows-by-columns
  record.
-/
import proofs.«168675_j34883724378624_1_alg».proof.Proof.LibBlocks

noncomputable section

open scoped BigOperators

namespace Cert.LibDenseLayer

open Idealize.ShloMosaic Idealize.ShloMosaic.ValueIdx

variable {n N K b : Nat}

/-- The product: entry (p, q) of block times matrix is entry (r, q) of array times matrix, when block row p is array
    row r. -/
theorem product_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (X : FVec Ideal ⟨2, ![n, K]⟩ .f32) (XX : FVec Ideal ⟨2, ![N, K]⟩ .f32) (w : FVec Ideal ⟨2, ![K, b]⟩ .f32)
    (p : Fin n) (r : Fin N) (h0 : ∀ k : Fin K, X (ix2 p k) = XX (ix2 r k)) (q : Fin b) :
    matmul dk none (truncf .bf16 X hlt) (truncf .bf16 w hlt) (constant ⟨2, ![n, b]⟩ .f32 0x00000000#32) (ix2 p q)
      = Host.dotGeneral dr none XX w (ix2 r q) := by
  show FloatOps.matmul dk none _ _ _ _ = FloatOps.dotGeneral dr none .single XX w (ix2 r q)
  rw [Cert.LibBlocks.matmul_plain_apply dk hdk, Cert.LibBlocks.dotGeneral_plain_apply dr hdr]
  refine Finset.sum_congr rfl fun k _ => ?_
  rw [truncf_apply, truncf_apply, h0 k]

/-- The bias row broadcast down the rows of a block, at entry (p, q): the row's entry q. -/
theorem bias_block_entry
    (hc1 : (⟨2, ![1, b]⟩ : Shape).ShapeCasts ⟨2, ![1, b]⟩) (hb : (⟨2, ![1, b]⟩ : Shape).Broadcasts ⟨2, ![n, b]⟩)
    (c : FVec Ideal ⟨2, ![1, b]⟩ .f32) (p : Fin n) (q : Fin b) :
    broadcastTo ⟨2, ![n, b]⟩ (shapeCast ⟨2, ![1, b]⟩ c hc1) hb (ix2 p q) = c (ix2 (0 : Fin 1) q) := by
  rw [shapeCast_self]
  exact broadcastTo_apply c hb (ix2 p q) (ix2 (0 : Fin 1) q) (fun a => by
    match a with
    | ⟨0, _⟩ => rfl
    | ⟨1, _⟩ =>
      show q.val = if b = 1 then 0 else q.val
      have := q.isLt
      split_ifs <;> omega)

/-- The bias row broadcast along both axes of the array, at entry (r, q): the row's entry q. -/
theorem bias_array_entry
    (hbd : (⟨2, ![1, b]⟩ : Shape).BroadcastsInDim ⟨2, ![N, b]⟩ ![0, 1])
    (c : FVec Ideal ⟨2, ![1, b]⟩ .f32) (r : Fin N) (q : Fin b) :
    broadcastInDim ⟨2, ![N, b]⟩ ![0, 1] hbd c (ix2 r q) = c (ix2 (0 : Fin 1) q) :=
  broadcastInDim_apply ![0, 1] hbd c (ix2 r q) (ix2 (0 : Fin 1) q) (fun a => by
    match a with
    | ⟨0, _⟩ => rfl
    | ⟨1, _⟩ =>
      show q.val = if b = 1 then 0 else q.val
      have := q.isLt
      split_ifs <;> omega)

/-- Product and bias: entry (p, q) on the block is entry (r, q) on the array. -/
theorem out_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    addf (matmul dk none (truncf .bf16 X hlt) (truncf .bf16 w hlt) (constant ⟨2, ![n, b]⟩ .f32 0x00000000#32))
        (broadcastTo ⟨2, ![n, b]⟩ (shapeCast ⟨2, ![1, b]⟩ c hc1) hb) (ix2 p q)
      = addf (Host.dotGeneral dr none XX w) (broadcastInDim ⟨2, ![N, b]⟩ ![0, 1] hbd c) (ix2 r q) := by
  rw [addf_apply, addf_apply, product_entry dk hdk dr hdr hlt X XX w p r h0 q, bias_block_entry hc1 hb c p q,
    bias_array_entry hbd c r q]

/-- Product, bias and rectifier: entry (p, q) on the block is entry (r, q) on the array. -/
theorem hidden_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    maximumf (addf (matmul dk none (truncf .bf16 X hlt) (truncf .bf16 w hlt) (constant ⟨2, ![n, b]⟩ .f32 0x00000000#32))
          (broadcastTo ⟨2, ![n, b]⟩ (shapeCast ⟨2, ![1, b]⟩ c hc1) hb))
        (broadcast ⟨2, ![n, b]⟩ (Scalar.ofBits (F := Ideal) .f32 0x00000000#32)) (ix2 p q)
      = maximumf (addf (Host.dotGeneral dr none XX w) (broadcastInDim ⟨2, ![N, b]⟩ ![0, 1] hbd c))
        (broadcastInDim ⟨2, ![N, b]⟩ ![] hz (constant (F := Ideal) ⟨0, ![]⟩ .f32 0x00000000#32)) (ix2 r q) := by
  rw [maximumf_apply, maximumf_apply, out_entry dk hdk dr hdr hlt hc1 hb hbd X XX w c p r h0 q,
    broadcastInDim_apply ![] hz (constant (F := Ideal) ⟨0, ![]⟩ .f32 0x00000000#32) (ix2 r q) ix0 (fun a => a.elim0)]
  rfl

end Cert.LibDenseLayer

end
-- ==== Proof.Linear.lean ====
/-
  The first pallas_call: a dense layer over the rows of x, worked in twenty blocks of 5000 rows.

  At grid point t the body reads rows 5000 t … 5000 t + 4999 of x, the whole weight matrix and the whole bias row,
  and writes, at entry (p, q) of its block, (Σ_k x(5000 t + p, k) · w(k, q)) + bias(0, q): the matrix unit's product
  into a zero accumulator with both operands narrowed on the way in (the identity on the extended reals), plus the
  bias row broadcast down the rows. That is entry (5000 t + p, q) of the same layer written once on the whole array,
  the host's product of x with w plus the bias row broadcast along both axes. The twenty blocks tile the 100000 rows,
  so after the call the output array IS that whole-array layer of the three input arrays as the call found them.
-/
import proofs.«168675_j34883724378624_1_alg».proof.Proof.Gen.KernelIdeal.Frame
import proofs.«168675_j34883724378624_1_alg».proof.Proof.Gen.ReferenceIdeal
import proofs.«168675_j34883724378624_1_alg».proof.Proof.LibDenseLayer
import Idealize.ShloMosaic.Lib.Pipeline.Value
import Idealize.ShloMosaic.Lib.ValueIdx
import Idealize.ShloMosaic.PureOps.Ideal.Laws

set_option maxRecDepth 16384

noncomputable section

namespace Cert.KernelIdeal.Linear

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The layer on the whole array: x times w on the host, plus the bias row along both axes. -/
def layer (X : FVec Ideal S100000x128 .f32) (W : FVec Ideal S128x128 .f32) (B : FVec Ideal S1x128 .f32) :
    FVec Ideal S100000x128 .f32 :=
  addf (Host.dotGeneral Cert.ReferenceIdeal.dot_S100000x128_S128x128_S100000x128_1_0_0_1_n_n none X W)
    (broadcastInDim S100000x128 ![0, 1] Cert.ReferenceIdeal.Facts₀.bcast_S1x128_S100000x128_0_1 B)

/-- One entry: what the body computes at (p, q) of a block whose row p is row r of the array is the whole-array
    layer at (r, q). -/
theorem layer_entry (xb : Vec Ideal S5000x128 .f32) (wb : Vec Ideal S128x128 .f32) (bb : Vec Ideal S1x128 .f32)
    (X : FVec Ideal S100000x128 .f32) (p : Fin 5000) (r : Fin 100000) (q : Fin 128)
    (hx : ∀ k : Fin 128, xb (ix2 p k) = X (ix2 r k)) :
    k0_pay1 xb wb bb (ix2 p q) = layer X wb bb (ix2 r q) := by
  unfold k0_pay1 layer
  exact Cert.LibDenseLayer.out_entry dot_S5000x128_S128x128_S5000x128_1_0_0_1_n_n rfl
    Cert.ReferenceIdeal.dot_S100000x128_S128x128_S100000x128_1_0_0_1_n_n rfl bitsLt_bf16_f32
    shapeCasts_S1x128_S1x128 broadcasts_S1x128_S5000x128 Cert.ReferenceIdeal.Facts₀.bcast_S1x128_S100000x128_0_1
    xb X wb bb p r hx q

/-- The block indices of the four windows, decided over the grid: x and the output move down the rows with the
    point, the weight matrix and the bias row stay. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem off_zero : (![0, 0] : Fin 2 → Nat) = fun _ => 0 := funext fun a => by fin_cases a <;> rfl

/-! ## The blocks the body reads, as parts of the arrays the call finds -/

/-- The three input blocks and arrays at their literal types. -/
abbrev xblk (c : Dev nD) (t : Fin cfg0.N) : Vec Ideal S5000x128 .f32 := iblk0 V c 0 t
abbrev wblk (c : Dev nD) (t : Fin cfg0.N) : Vec Ideal S128x128 .f32 := iblk0 V c 1 t
abbrev bblk (c : Dev nD) (t : Fin cfg0.N) : Vec Ideal S1x128 .f32 := iblk0 V c 2 t
abbrev xarr (c : Dev nD) : FVec Ideal S100000x128 .f32 := V c main_arg0
abbrev warr (c : Dev nD) : FVec Ideal S128x128 .f32 := V c main_arg1
abbrev barr (c : Dev nD) : FVec Ideal S1x128 .f32 := V c main_v0

/-- Row p of x's block at point t is row 5000 t + p of x. -/
theorem x_block (c : Dev nD) (t : Fin cfg0.N) (p : Fin 5000) (k : Fin 128) (r : Fin 100000)
    (hr : r.val = t.val * 5000 + p.val) : xblk V c t (ix2 p k) = xarr V c (ix2 r k) := by
  show V c main_arg0 (((cfg0.win 0).blk t).view.emb (ix2 p k)) = V c main_arg0 (ix2 r k)
  refine congrArg _ ?_
  obtain ⟨e0, e1, -⟩ := block_index t
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- The weight matrix's block is the whole matrix at every point. -/
theorem w_block (c : Dev nD) (t : Fin cfg0.N) : wblk V c t = warr V c := by
  funext j
  show V c main_arg1 (((cfg0.win 1).blk t).view.emb j) = V c main_arg1 j
  refine congrArg _ ?_
  obtain ⟨-, -, e2, e3, -⟩ := block_index t
  funext a; apply Fin.ext
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- The bias row's block is the whole row at every point. -/
theorem b_block (c : Dev nD) (t : Fin cfg0.N) : bblk V c t = barr V c := by
  funext j
  show V c main_v0 (((cfg0.win 2).blk t).view.emb j) = V c main_v0 j
  refine congrArg _ ?_
  obtain ⟨-, -, -, -, e4, e5, -⟩ := block_index t
  funext a; apply Fin.ext
  match a with
  | ⟨0, _⟩ => show win0_2.index t (0 : Fin 2) * 1 + 1 * (j 0).val = (j 0).val; omega
  | ⟨1, _⟩ => show win0_2.index t (1 : Fin 2) * 128 + 1 * (j 1).val = (j 1).val; omega

/-- Entry (p, q) of the output's block at point t sits at (5000 t + p, q) of the output array. -/
theorem out_emb (t : Fin cfg0.N) (p : Fin 5000) (q : Fin 128) (r : Fin 100000) (hr : r.val = t.val * 5000 + p.val) :
    ((cfg0.win 3).blk t).view.emb (ix2 p q) = (ix2 r q : S100000x128.Idx) := by
  obtain ⟨-, -, -, -, -, -, e6, e7⟩ := block_index t
  funext a; apply Fin.ext
  match a with
  | ⟨0, _⟩ => show win0_3.index t (0 : Fin 2) * 5000 + 1 * p.val = r.val; omega
  | ⟨1, _⟩ => show win0_3.index t (1 : Fin 2) * 128 + 1 * q.val = q.val; omega

/-! ## What a point writes back, and the array after the call -/

/-- What point t writes back is block t of the whole-array layer of the arrays the call finds. -/
theorem flushed_eq (c : Dev nD) (t : Fin cfg0.N) :
    (dat0 V c).flushed 3 t
      = ((cfg0.win 3).blk t).view.read (Elt Ideal) (layer (xarr V c) (warr V c) (barr V c)) := by
  show (cfg0.win 3).cut (grid0.coords t) ((dat0 V c).after 3 t) = _
  rw [after0_3]
  unfold out0_3
  rw [View.canon_unit_zero off_zero]
  simp only [View.ld_unit_zero (S := S5000x128) off_zero, View.ld_unit_zero (S := S128x128) off_zero,
    View.ld_unit_zero (S := S1x128) off_zero]
  funext j
  obtain ⟨p, q, rfl⟩ : ∃ (p : Fin 5000) (q : Fin 128), j = ix2 p q := ⟨j 0, j 1, eq_ix2 j⟩
  have ht : t.val < 20 := t.isLt
  have hp : p.val < 5000 := p.isLt
  have hlt : t.val * 5000 + p.val < 100000 := by omega
  show k0_pay1 (xblk V c t) (wblk V c t) (bblk V c t) (ix2 p q)
    = layer (xarr V c) (warr V c) (barr V c) (((cfg0.win 3).blk t).view.emb (ix2 p q))
  rw [out_emb t p q ⟨t.val * 5000 + p.val, hlt⟩ rfl, w_block, b_block]
  exact layer_entry (xblk V c t) (warr V c) (barr V c) (xarr V c) p ⟨t.val * 5000 + p.val, hlt⟩ q
    (fun k => x_block V c t p k ⟨t.val * 5000 + p.val, hlt⟩ rfl)

/-- An index of the output array is in point t's block iff each coordinate is in the block's range. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v1).slice (win0_3.rect t)).set ↔ _
  rw [View.set_slice_whole, Rect.mem_set_unit]
  exact Iff.rfl

/-- Every row of the output lies in the block of the point its row number divided by 5000 names. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have ht : (i 0).val / 5000 < 20 := by omega
  refine ⟨⟨(i 0).val / 5000, ht⟩, flush0_3 _, ?_⟩
  rw [mem_blk]
  obtain ⟨-, -, -, -, -, -, e6, e7⟩ := block_index ⟨(i 0).val / 5000, ht⟩
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e7]; omega

/-- THE ARRAY AFTER THE CALL: the dense layer of the three input arrays as the call found them. -/
theorem array_eq (c : Dev nD) :
    (dat0 V c).arrAt 3 cfg0.N = layer (xarr V c) (warr V c) (barr V c) :=
  (dat0 V c).arrAt_eq_of_cover 3 _ (fun t _ => flushed_eq V c t) cover

end Cert.KernelIdeal.Linear

end
-- ==== Proof.Attention.lean ====
/-
  The second pallas_call: the attention weight of each hyperedge, worked in five blocks of 5000 rows.

  At grid point t the body reads rows 5000 t … 5000 t + 4999 of the hyperedge features e, the whole weight column w
  and the one-entry bias b, and writes, at entry (p, 0) of its block, the logistic function of
  (Σ_k e(5000 t + p, k) · w(k, 0)) + b(0, 0). On the extended reals the logistic function of z is 1 / (1 + exp (-z))
  with the host's own division, exponential and negation, and the word 0x3F800000 is the number one; so the entry is
  entry (5000 t + p, 0) of  1 / (1 + exp (-(e · w + b)))  written once on the whole array with the host's
  operations. The five blocks tile the 25000 rows, so after the call the output array IS that whole-array expression
  of the three input arrays as the call found them.
-/
import proofs.«168675_j34883724378624_1_alg».proof.Proof.Gen.KernelIdeal.Frame
import proofs.«168675_j34883724378624_1_alg».proof.Proof.Gen.ReferenceIdeal
import proofs.«168675_j34883724378624_1_alg».proof.Proof.LibDenseLayer
import Idealize.ShloMosaic.Lib.Pipeline.Value
import Idealize.ShloMosaic.Lib.ValueIdx
import Idealize.ShloMosaic.PureOps.Ideal.Laws

set_option maxRecDepth 16384

noncomputable section

namespace Cert.KernelIdeal.Attention

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The word 0x3F800000 is the number one. -/
theorem one_word : Ideal.ofBits .f32 0x3F800000#32 = 1 := by
  simp [Ideal.ofBits, Ideal.ieee, -EReal.coe_mul]; norm_num

/-- The column of ones the host divides and adds with. -/
def ones : FVec Ideal S25000x1 .f32 :=
  broadcastInDim S25000x1 ![] Cert.ReferenceIdeal.Facts₀.bcast_S_S25000x1 (constant S_ .f32 0x3F800000#32)

theorem ones_apply (i : S25000x1.Idx) : ones i = (1 : EReal) :=
  (broadcastInDim_apply ![] Cert.ReferenceIdeal.Facts₀.bcast_S_S25000x1 (constant (F := Ideal) S_ .f32 0x3F800000#32) i ix0
    (fun a => a.elim0)).trans one_word

/-- The logit on the whole array: e times w on the host, plus the bias entry along both axes. -/
def logit (E : FVec Ideal S25000x128 .f32) (W : FVec Ideal S128x1 .f32) (B : FVec Ideal S1x1 .f32) :
    FVec Ideal S25000x1 .f32 :=
  addf (Host.dotGeneral Cert.ReferenceIdeal.dot_S25000x128_S128x1_S25000x1_1_0_0_1_n_n none E W)
    (broadcastInDim S25000x1 ![0, 1] Cert.ReferenceIdeal.Facts₀.bcast_S1x1_S25000x1_0_1 B)

/-- The attention weights on the whole array: 1 / (1 + exp (-logit)), in the host's operations. -/
def weights (E : FVec Ideal S25000x128 .f32) (W : FVec Ideal S128x1 .f32) (B : FVec Ideal S1x1 .f32) :
    FVec Ideal S25000x1 .f32 :=
  Host.divf ones (addf ones (Host.exp (Host.negf (logit E W B))))

/-- One entry: what the body computes at (p, q) of a block whose row p is row r of the array is the whole-array
    weight at (r, q). -/
theorem weights_entry (eb : Vec Ideal S5000x128 .f32) (wb : Vec Ideal S128x1 .f32) (bb : Vec Ideal S1x1 .f32)
    (E : FVec Ideal S25000x128 .f32) (p : Fin 5000) (r : Fin 25000) (q : Fin 1)
    (hx : ∀ k : Fin 128, eb (ix2 p k) = E (ix2 r k)) :
    k1_pay1 eb wb bb (ix2 p q) = weights E wb bb (ix2 r q) := by
  have hin := Cert.LibDenseLayer.out_entry dot_S5000x128_S128x1_S5000x1_1_0_0_1_n_n rfl
    Cert.ReferenceIdeal.dot_S25000x128_S128x1_S25000x1_1_0_0_1_n_n rfl bitsLt_bf16_f32
    shapeCasts_S1x1_S1x1 broadcasts_S1x1_S5000x1 Cert.ReferenceIdeal.Facts₀.bcast_S1x1_S25000x1_0_1
    eb E wb bb p r hx q
  show Ideal.logistic (addf (F := Ideal) (matmul (F := Ideal) dot_S5000x128_S128x1_S5000x1_1_0_0_1_n_n none
        (truncf .bf16 (shapeCast S5000x128 eb shapeCasts_S5000x128_S5000x128) bitsLt_bf16_f32) (truncf .bf16 wb bitsLt_bf16_f32)
        (constant S5000x1 .f32 0x00000000#32))
      (broadcastTo S5000x1 (shapeCast S1x1 bb shapeCasts_S1x1_S1x1) broadcasts_S1x1_S5000x1) (ix2 p q))
    = Ideal.div (ones (ix2 r q)) (ones (ix2 r q) + Ideal.exp (-(logit E wb bb (ix2 r q))))
  rw [shapeCast_self eb, hin, ones_apply]
  rfl

/-- The block indices of the four windows, decided over the grid: e and the output move down the rows with the
    point, the weight column and the bias entry stay. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem off_zero : (![0, 0] : Fin 2 → Nat) = fun _ => 0 := funext fun a => by fin_cases a <;> rfl

/-! ## The blocks the body reads, as parts of the arrays the call finds -/

/-- The three input blocks and arrays at their literal types. -/
abbrev eblk (c : Dev nD) (t : Fin cfg1.N) : Vec Ideal S5000x128 .f32 := iblk1 V c 0 t
abbrev wblk (c : Dev nD) (t : Fin cfg1.N) : Vec Ideal S128x1 .f32 := iblk1 V c 1 t
abbrev bblk (c : Dev nD) (t : Fin cfg1.N) : Vec Ideal S1x1 .f32 := iblk1 V c 2 t
abbrev earr (c : Dev nD) : FVec Ideal S25000x128 .f32 := V c main_v58
abbrev warr (c : Dev nD) : FVec Ideal S128x1 .f32 := V c main_arg3
abbrev barr (c : Dev nD) : FVec Ideal S1x1 .f32 := V c main_v59

/-- Row p of e's block at point t is row 5000 t + p of e. -/
theorem e_block (c : Dev nD) (t : Fin cfg1.N) (p : Fin 5000) (k : Fin 128) (r : Fin 25000)
    (hr : r.val = t.val * 5000 + p.val) : eblk V c t (ix2 p k) = earr V c (ix2 r k) := by
  show V c main_v58 (((cfg1.win 0).blk t).view.emb (ix2 p k)) = V c main_v58 (ix2 r k)
  refine congrArg _ ?_
  obtain ⟨e0, e1, -⟩ := block_index t
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- The weight column's block is the whole column at every point. -/
theorem w_block (c : Dev nD) (t : Fin cfg1.N) : wblk V c t = warr V c := by
  funext j
  show V c main_arg3 (((cfg1.win 1).blk t).view.emb j) = V c main_arg3 j
  refine congrArg _ ?_
  obtain ⟨-, -, e2, e3, -⟩ := block_index t
  funext a; apply Fin.ext
  match a with
  | ⟨0, _⟩ => show win1_1.index t (0 : Fin 2) * 128 + 1 * (j 0).val = (j 0).val; omega
  | ⟨1, _⟩ => show win1_1.index t (1 : Fin 2) * 1 + 1 * (j 1).val = (j 1).val; omega

/-- The bias entry's block is the whole one-entry array at every point. -/
theorem b_block (c : Dev nD) (t : Fin cfg1.N) : bblk V c t = barr V c := by
  funext j
  show V c main_v59 (((cfg1.win 2).blk t).view.emb j) = V c main_v59 j
  refine congrArg _ ?_
  obtain ⟨-, -, -, -, e4, e5, -⟩ := block_index t
  funext a; apply Fin.ext
  match a with
  | ⟨0, _⟩ => show win1_2.index t (0 : Fin 2) * 1 + 1 * (j 0).val = (j 0).val; omega
  | ⟨1, _⟩ => show win1_2.index t (1 : Fin 2) * 1 + 1 * (j 1).val = (j 1).val; omega

/-- Entry (p, q) of the output's block at point t sits at (5000 t + p, q) of the output array. -/
theorem out_emb (t : Fin cfg1.N) (p : Fin 5000) (q : Fin 1) (r : Fin 25000) (hr : r.val = t.val * 5000 + p.val) :
    ((cfg1.win 3).blk t).view.emb (ix2 p q) = (ix2 r q : S25000x1.Idx) := by
  obtain ⟨-, -, -, -, -, -, e6, e7⟩ := block_index t
  funext a; apply Fin.ext
  match a with
  | ⟨0, _⟩ => show win1_3.index t (0 : Fin 2) * 5000 + 1 * p.val = r.val; omega
  | ⟨1, _⟩ => show win1_3.index t (1 : Fin 2) * 1 + 1 * q.val = q.val; omega

/-! ## What a point writes back, and the array after the call -/

/-- What point t writes back is block t of the whole-array weights of the arrays the call finds. -/
theorem flushed_eq (c : Dev nD) (t : Fin cfg1.N) :
    (dat1 V c).flushed 3 t
      = ((cfg1.win 3).blk t).view.read (Elt Ideal) (weights (earr V c) (warr V c) (barr V c)) := by
  show (cfg1.win 3).cut (grid1.coords t) ((dat1 V c).after 3 t) = _
  rw [after1_3]
  unfold out1_3
  rw [View.canon_unit_zero off_zero]
  simp only [View.ld_unit_zero (S := S5000x128) off_zero, View.ld_unit_zero (S := S128x1) off_zero,
    View.ld_unit_zero (S := S1x1) off_zero]
  funext j
  obtain ⟨p, q, rfl⟩ : ∃ (p : Fin 5000) (q : Fin 1), j = ix2 p q := ⟨j 0, j 1, eq_ix2 j⟩
  have ht : t.val < 5 := t.isLt
  have hp : p.val < 5000 := p.isLt
  have hlt : t.val * 5000 + p.val < 25000 := by omega
  show k1_pay1 (eblk V c t) (wblk V c t) (bblk V c t) (ix2 p q)
    = weights (earr V c) (warr V c) (barr V c) (((cfg1.win 3).blk t).view.emb (ix2 p q))
  rw [out_emb t p q ⟨t.val * 5000 + p.val, hlt⟩ rfl, w_block, b_block]
  exact weights_entry (eblk V c t) (warr V c) (barr V c) (earr V c) p ⟨t.val * 5000 + p.val, hlt⟩ q
    (fun k => e_block V c t p k ⟨t.val * 5000 + p.val, hlt⟩ rfl)

/-- An index of the output array is in point t's block iff each coordinate is in the block's range. -/
theorem mem_blk (t : Fin cfg1.N) (i : S25000x1.Idx) :
    i ∈ ((cfg1.win 3).blk t).view.set ↔ ∀ a : Fin 2, win1_3.index t a * S5000x1.size a ≤ (i a).val
      ∧ (i a).val < win1_3.index t a * S5000x1.size a + S5000x1.size a := by
  show i ∈ ((View.whole main_v60).slice (win1_3.rect t)).set ↔ _
  rw [View.set_slice_whole, Rect.mem_set_unit]
  exact Iff.rfl

/-- Every row of the output lies in the block of the point its row number divided by 5000 names. -/
theorem cover (i : S25000x1.Idx) :
    ∃ t : Fin cfg1.N, (cfg1.win 3).flush t = true ∧ i ∈ ((cfg1.win 3).blk t).view.set := by
  have hi0 : (i 0).val < 25000 := (i 0).isLt
  have hi1 : (i 1).val < 1 := (i 1).isLt
  have ht : (i 0).val / 5000 < 5 := by omega
  refine ⟨⟨(i 0).val / 5000, ht⟩, flush1_3 _, ?_⟩
  rw [mem_blk]
  obtain ⟨-, -, -, -, -, -, e6, e7⟩ := block_index ⟨(i 0).val / 5000, ht⟩
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ (1 : Fin 2) * 1 ≤ (i 1).val
      ∧ (i 1).val < win1_3.index ⟨(i 0).val / 5000, ht⟩ (1 : Fin 2) * 1 + 1
    rw [e7]; omega

/-- THE ARRAY AFTER THE CALL: the attention weights of the three input arrays as the call found them. -/
theorem array_eq (c : Dev nD) :
    (dat1 V c).arrAt 3 cfg1.N = weights (earr V c) (warr V c) (barr V c) :=
  (dat1 V c).arrAt_eq_of_cover 3 _ (fun t _ => flushed_eq V c t) cover

end Cert.KernelIdeal.Attention

end
-- ==== Proof.LibColumn.lean ====
/-
  A column kept beside a matrix. A vector of a entries reshaped to an a x 1 column holds entry p at (p, 0): the
  column's row-major position p * 1 + 0 is the vector's index p. An a x 1 column broadcast to a x b repeats each
  row's one entry along the row: entry (p, c) of the result is entry (p, 0) of the column, since the column's
  second axis has length one and its first axis is carried over unchanged.
-/
import Idealize.ShloMosaic.Lib.Pipeline.Value
import Idealize.ShloMosaic.Lib.ValueIdx

namespace Cert.Proof.Column

open Idealize.ShloMosaic Idealize.ShloMosaic.ValueIdx

variable {α : Type}

/-- A vector of `a` entries as an `a x 1` column reads, at `(p, u)`, entry `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a x 1` column broadcast to `a x b` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Proof.Column
-- ==== Proof.Normalize.lean ====
/-
  The third pallas_call: the final normalisation, worked in twenty blocks of 5000 rows.

  At grid point t the body reads rows 5000 t … 5000 t + 4999 of the numerator array [100000, 128] and of the
  denominator column [100000, 1], and writes, at entry (p, q) of its block, num(5000 t + p, q) divided by the larger
  of den(5000 t + p, 0) and the constant whose word is 0x2B8CBCCC: the column is first bounded below, entry by entry,
  then repeated along each row. That is entry (5000 t + p, q) of the same quotient written once on the whole arrays
  with the host's division, maximum and broadcasts: the kernel's division and the host's are one function on the
  extended reals, and both sides read the same word for the constant. The twenty blocks tile the 100000 rows, so
  after the call the output array IS that whole-array quotient of the two input arrays as the call found them.
-/
import proofs.«168675_j34883724378624_1_alg».proof.Proof.Gen.KernelIdeal.Frame
import proofs.«168675_j34883724378624_1_alg».proof.Proof.Gen.ReferenceIdeal
import proofs.«168675_j34883724378624_1_alg».proof.Proof.LibColumn
import Idealize.ShloMosaic.Lib.Pipeline.Value
import Idealize.ShloMosaic.Lib.ValueIdx
import Idealize.ShloMosaic.PureOps.Ideal.Laws

set_option maxRecDepth 16384

noncomputable section

namespace Cert.KernelIdeal.Normalize

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The quotient on the whole arrays: the numerator over the denominator column bounded below by the constant and
    repeated along the rows, in the host's operations. -/
def quotient (NUM : FVec Ideal S100000x128 .f32) (DEN : FVec Ideal S100000x1 .f32) : FVec Ideal S100000x128 .f32 :=
  Host.divf NUM (broadcastInDim S100000x128 ![0, 1] Cert.ReferenceIdeal.Facts₀.bcast_S100000x1_S100000x128_0_1
    (maximumf DEN (broadcastInDim S100000x1 ![] Cert.ReferenceIdeal.Facts₀.bcast_S_S100000x1 (constant S_ .f32 0x2B8CBCCC#32))))

/-- One entry: what the body computes at (p, q) of blocks whose row p is row r of the arrays is the whole-array
    quotient at (r, q). -/
theorem quotient_entry (db : Vec Ideal S5000x1 .f32) (nb : Vec Ideal S5000x128 .f32)
    (NUM : FVec Ideal S100000x128 .f32) (DEN : FVec Ideal S100000x1 .f32) (p : Fin 5000) (r : Fin 100000) (q : Fin 128)
    (hn : nb (ix2 p q) = NUM (ix2 r q)) (hd : db (ix2 p (0 : Fin 1)) = DEN (ix2 r (0 : Fin 1))) :
    k2_pay1 db nb (ix2 p q) = quotient NUM DEN (ix2 r q) := by
  show Ideal.div ((shapeCast S5000x128 nb shapeCasts_S5000x128_S5000x128) (ix2 p q))
      (broadcastTo S5000x128 (maximumf (F := Ideal) (shapeCast S5000x1 db shapeCasts_S5000x1_S5000x1)
        (broadcast S5000x1 (Scalar.ofBits (F := Ideal) .f32 0x2B8CBCCC#32))) broadcasts_S5000x1_S5000x128 (ix2 p q))
    = Ideal.div (NUM (ix2 r q))
      (broadcastInDim S100000x128 ![0, 1] Cert.ReferenceIdeal.Facts₀.bcast_S100000x1_S100000x128_0_1
        (maximumf (F := Ideal) DEN (broadcastInDim S100000x1 ![] Cert.ReferenceIdeal.Facts₀.bcast_S_S100000x1
          (constant (F := Ideal) S_ .f32 0x2B8CBCCC#32))) (ix2 r q))
  rw [shapeCast_self nb, shapeCast_self db,
    Cert.Proof.Column.broadcastTo_a1_ab_apply _ broadcasts_S5000x1_S5000x128 p q,
    broadcastInDim_apply ![0, 1] Cert.ReferenceIdeal.Facts₀.bcast_S100000x1_S100000x128_0_1 _ (ix2 r q) (ix2 r (0 : Fin 1))
      (fun a => match a with
        | ⟨0, _⟩ => by show r.val = if (100000 : Nat) = 1 then 0 else r.val; rw [if_neg (by decide)]
        | ⟨1, _⟩ => by show 0 = if (1 : Nat) = 1 then 0 else q.val; rw [if_pos rfl]),
    maximumf_apply, maximumf_apply, broadcast_apply,
    broadcastInDim_apply ![] Cert.ReferenceIdeal.Facts₀.bcast_S_S100000x1 _ (ix2 r (0 : Fin 1)) ix0 (fun a => a.elim0),
    hn, hd]
  rfl

/-- The block indices of the three windows, decided over the grid: all move down the rows with the point. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

theorem off_zero : (![0, 0] : Fin 2 → Nat) = fun _ => 0 := funext fun a => by fin_cases a <;> rfl

/-! ## The blocks the body reads, as parts of the arrays the call finds -/

/-- The two input blocks and arrays at their literal types. -/
abbrev nblk (c : Dev nD) (t : Fin cfg2.N) : Vec Ideal S5000x128 .f32 := iblk2 V c 0 t
abbrev dblk (c : Dev nD) (t : Fin cfg2.N) : Vec Ideal S5000x1 .f32 := iblk2 V c 1 t
abbrev narr (c : Dev nD) : FVec Ideal S100000x128 .f32 := V c main_v79
abbrev darr (c : Dev nD) : FVec Ideal S100000x1 .f32 := V c main_v82

/-- Row p of the numerator's block at point t is row 5000 t + p of the numerator. -/
theorem n_block (c : Dev nD) (t : Fin cfg2.N) (p : Fin 5000) (q : Fin 128) (r : Fin 100000)
    (hr : r.val = t.val * 5000 + p.val) : nblk V c t (ix2 p q) = narr V c (ix2 r q) := by
  show V c main_v79 (((cfg2.win 0).blk t).view.emb (ix2 p q)) = V c main_v79 (ix2 r q)
  refine congrArg _ ?_
  obtain ⟨e0, e1, -⟩ := block_index t
  funext a; apply Fin.ext
  match a with
  | ⟨0, _⟩ => show win2_0.index t (0 : Fin 2) * 5000 + 1 * p.val = r.val; omega
  | ⟨1, _⟩ => show win2_0.index t (1 : Fin 2) * 128 + 1 * q.val = q.val; omega

/-- Row p of the denominator's block at point t is row 5000 t + p of the denominator. -/
theorem d_block (c : Dev nD) (t : Fin cfg2.N) (p : Fin 5000) (u : Fin 1) (r : Fin 100000)
    (hr : r.val = t.val * 5000 + p.val) : dblk V c t (ix2 p u) = darr V c (ix2 r u) := by
  show V c main_v82 (((cfg2.win 1).blk t).view.emb (ix2 p u)) = V c main_v82 (ix2 r u)
  refine congrArg _ ?_
  obtain ⟨-, -, e2, e3, -⟩ := block_index t
  funext a; apply Fin.ext
  match a with
  | ⟨0, _⟩ => show win2_1.index t (0 : Fin 2) * 5000 + 1 * p.val = r.val; omega
  | ⟨1, _⟩ => show win2_1.index t (1 : Fin 2) * 1 + 1 * u.val = u.val; omega

/-- Entry (p, q) of the output's block at point t sits at (5000 t + p, q) of the output array. -/
theorem out_emb (t : Fin cfg2.N) (p : Fin 5000) (q : Fin 128) (r : Fin 100000) (hr : r.val = t.val * 5000 + p.val) :
    ((cfg2.win 2).blk t).view.emb (ix2 p q) = (ix2 r q : S100000x128.Idx) := by
  obtain ⟨-, -, -, -, e4, e5⟩ := block_index t
  funext a; apply Fin.ext
  match a with
  | ⟨0, _⟩ => show win2_2.index t (0 : Fin 2) * 5000 + 1 * p.val = r.val; omega
  | ⟨1, _⟩ => show win2_2.index t (1 : Fin 2) * 128 + 1 * q.val = q.val; omega

/-! ## What a point writes back, and the array after the call -/

/-- What point t writes back is block t of the whole-array quotient of the arrays the call finds. -/
theorem flushed_eq (c : Dev nD) (t : Fin cfg2.N) :
    (dat2 V c).flushed 2 t
      = ((cfg2.win 2).blk t).view.read (Elt Ideal) (quotient (narr V c) (darr V c)) := by
  show (cfg2.win 2).cut (grid2.coords t) ((dat2 V c).after 2 t) = _
  rw [after2_2]
  unfold out2_2
  rw [View.canon_unit_zero off_zero]
  simp only [View.ld_unit_zero (S := S5000x128) off_zero, View.ld_unit_zero (S := S5000x1) off_zero]
  funext j
  obtain ⟨p, q, rfl⟩ : ∃ (p : Fin 5000) (q : Fin 128), j = ix2 p q := ⟨j 0, j 1, eq_ix2 j⟩
  have ht : t.val < 20 := t.isLt
  have hp : p.val < 5000 := p.isLt
  have hlt : t.val * 5000 + p.val < 100000 := by omega
  show k2_pay1 (dblk V c t) (nblk V c t) (ix2 p q)
    = quotient (narr V c) (darr V c) (((cfg2.win 2).blk t).view.emb (ix2 p q))
  rw [out_emb t p q ⟨t.val * 5000 + p.val, hlt⟩ rfl]
  exact quotient_entry (dblk V c t) (nblk V c t) (narr V c) (darr V c) p ⟨t.val * 5000 + p.val, hlt⟩ q
    (n_block V c t p q ⟨t.val * 5000 + p.val, hlt⟩ rfl) (d_block V c t p 0 ⟨t.val * 5000 + p.val, hlt⟩ rfl)

/-- An index of the output array is in point t's block iff each coordinate is in the block's range. -/
theorem mem_blk (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v83).slice (win2_2.rect t)).set ↔ _
  rw [View.set_slice_whole, Rect.mem_set_unit]
  exact Iff.rfl

/-- Every row of the output lies in the block of the point its row number divided by 5000 names. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have ht : (i 0).val / 5000 < 20 := by omega
  refine ⟨⟨(i 0).val / 5000, ht⟩, flush2_2 _, ?_⟩
  rw [mem_blk]
  obtain ⟨-, -, -, -, e4, e5⟩ := block_index ⟨(i 0).val / 5000, ht⟩
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val
      ∧ (i 1).val < win2_2.index ⟨(i 0).val / 5000, ht⟩ (1 : Fin 2) * 128 + 128
    rw [e5]; omega

/-- THE ARRAY AFTER THE CALL: the quotient of the two input arrays as the call found them. -/
theorem array_eq (c : Dev nD) :
    (dat2 V c).arrAt 2 cfg2.N = quotient (narr V c) (darr V c) :=
  (dat2 V c).arrAt_eq_of_cover 2 _ (fun t _ => flushed_eq V c t) cover

end Cert.KernelIdeal.Normalize

end
-- ==== Proof.LibLayout.lean ====
/-
  Two ways to write a vector as a matrix with one unit axis. A vector of n entries as a 1 x n row is the same array
  whether it is reshaped or broadcast along axis 1: entry (0, j) is entry j. As an n x 1 column it is the same whether
  reshaped or broadcast along axis 0: entry (i, 0) is entry i. In each case the row-major position of the matrix
  entry is the vector's index, because the other axis has length 1.
-/
import Idealize.ShloMosaic.Lib.Pipeline.Value
import Idealize.ShloMosaic.Lib.ValueIdx

namespace Cert.Proof.Layout

open Idealize.ShloMosaic Idealize.ShloMosaic.ValueIdx

variable {α : Type}

/-- A vector of n entries as a 1 x n row: the reshape is the broadcast along axis 1. -/
theorem reshape_row_eq_broadcastInDim {n : Nat} (x : (⟨1, ![n]⟩ : Shape).Idx → α)
    (h : (⟨1, ![n]⟩ : Shape).ShapeCasts ⟨2, ![1, n]⟩)
    (hd : (⟨1, ![n]⟩ : Shape).BroadcastsInDim ⟨2, ![1, n]⟩ ![1]) :
    shapeCast ⟨2, ![1, n]⟩ x h = broadcastInDim ⟨2, ![1, n]⟩ ![1] hd x := by
  funext i
  have h0 : (i 0).val < 1 := (i 0).isLt
  have h1 : (i 1).val < n := (i 1).isLt
  have e2 := shapeCast_apply x h i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · omega
      · rfl)
  exact e2.trans e3.symm

/-- A vector of n entries as an n x 1 column: the reshape is the broadcast along axis 0. -/
theorem reshape_col_eq_broadcastInDim {n : Nat} (x : (⟨1, ![n]⟩ : Shape).Idx → α)
    (h : (⟨1, ![n]⟩ : Shape).ShapeCasts ⟨2, ![n, 1]⟩)
    (hd : (⟨1, ![n]⟩ : Shape).BroadcastsInDim ⟨2, ![n, 1]⟩ ![0]) :
    shapeCast ⟨2, ![n, 1]⟩ x h = broadcastInDim ⟨2, ![n, 1]⟩ ![0] hd x := by
  funext i
  have h0 : (i 0).val < n := (i 0).isLt
  have h1 : (i 1).val < 1 := (i 1).isLt
  have e2 := shapeCast_apply x h i (ix1 (i 0 : Fin n)) (by
    rw [Shape.rowMajor_val_two, Shape.rowMajor_val_one]
    show (i 0).val = (i 0).val * 1 + (i 1).val
    omega)
  have e3 := broadcastInDim_apply ![0] hd x i (ix1 (i 0 : Fin n)) (by
    intro a
    match a with
    | ⟨0, _⟩ =>
      show (i 0).val = if n = 1 then 0 else (i 0).val
      split
      · omega
      · rfl)
  exact e2.trans e3.symm

end Cert.Proof.Layout
-- ==== Proof.KernelValue.lean ====
/-
  The result of the program with the three pallas_calls, as a function of the seven launch arrays.

  @main is six stretches: host operations, the dense layer, host operations, the attention weights, host operations,
  the final quotient. The buffer contents at each boundary are a fold from the launch memory. Read one boundary at a
  time, the buffers the next stretch uses hold:

    after the bias reshape        the bias as a 1 x 128 row (the reshape is the broadcast along axis 1), the arguments;
    after the dense layer         h = x · theta + bias, in the host's own operations (the first pallas_call's array);
    after the second stretch      e2, two rounds of gather by node, sum and count by hyperedge, divide — and back — over h:
                                  the SAME chain of host operations the reference applies to its own h;
    after the attention call      w = 1 / (1 + exp (-(e2 · att_w + att_b)));
    after the third stretch       num and den, the scatter-sums by node of w[edge] · e2[edge] and of w[edge];
    after the quotient call       num / max(den, 1e-12).

  Each stretch of host operations is unfolded once, operation by operation, and its leaves rewritten to the values already
  named; what is left is an equation between two spellings of one composed term, which unfolds to syntactic equality
  (the two programs' dimension records are the same records under two names). The reference's stages are the generated
  `val_main_vN`; the kernel program's buffers %1, %58, %60, %79, %82, %83 are its %3, %60, %70, %89, %92, %96.
-/
import proofs.«168675_j34883724378624_1_alg».proof.Proof.Gen.KernelIdeal.Frame
import proofs.«168675_j34883724378624_1_alg».proof.Proof.Gen.ReferenceIdeal.Read
import proofs.«168675_j34883724378624_1_alg».proof.Proof.Linear
import proofs.«168675_j34883724378624_1_alg».proof.Proof.Attention
import proofs.«168675_j34883724378624_1_alg».proof.Proof.Normalize
import proofs.«168675_j34883724378624_1_alg».proof.Proof.LibLayout
import Idealize.ShloMosaic.Lib.StableHlo.Run

set_option maxRecDepth 16384

noncomputable section

namespace Cert.KernelIdeal.Outcome

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## The seven launch arrays, at their literal types -/

abbrev a0 (c : Dev nD) : FVec Ideal S100000x128 .f32 := m ((c : Thread nD τ).loc main_arg0)
abbrev a1 (c : Dev nD) : FVec Ideal S128x128 .f32 := m ((c : Thread nD τ).loc main_arg1)
abbrev a2 (c : Dev nD) : FVec Ideal S128 .f32 := m ((c : Thread nD τ).loc main_arg2)
abbrev a3 (c : Dev nD) : FVec Ideal S128x1 .f32 := m ((c : Thread nD τ).loc main_arg3)
abbrev a4 (c : Dev nD) : FVec Ideal S1 .f32 := m ((c : Thread nD τ).loc main_arg4)
abbrev a5 (c : Dev nD) : S800000.Idx → BitVec 32 := m ((c : Thread nD τ).loc main_arg5)
abbrev a6 (c : Dev nD) : S800000.Idx → BitVec 32 := m ((c : Thread nD τ).loc main_arg6)

/-! ## Before the dense layer: the bias reshaped to a row -/

theorem W1_arg0 (c : Dev nD) : W1 m ρ c (Proc.devRef .tc main_arg0) = a0 m c := by
  show StableHlo.after hostOps0 (W0 m ρ c) (Proc.devRef .tc main_arg0) = _
  after_results
theorem W1_arg1 (c : Dev nD) : W1 m ρ c (Proc.devRef .tc main_arg1) = a1 m c := by
  show StableHlo.after hostOps0 (W0 m ρ c) (Proc.devRef .tc main_arg1) = _
  after_results
theorem W1_arg3 (c : Dev nD) : W1 m ρ c (Proc.devRef .tc main_arg3) = a3 m c := by
  show StableHlo.after hostOps0 (W0 m ρ c) (Proc.devRef .tc main_arg3) = _
  after_results
theorem W1_arg4 (c : Dev nD) : W1 m ρ c (Proc.devRef .tc main_arg4) = a4 m c := by
  show StableHlo.after hostOps0 (W0 m ρ c) (Proc.devRef .tc main_arg4) = _
  after_results
theorem W1_arg5 (c : Dev nD) : W1 m ρ c (Proc.devRef .tc main_arg5) = a5 m c := by
  show StableHlo.after hostOps0 (W0 m ρ c) (Proc.devRef .tc main_arg5) = _
  after_results
theorem W1_arg6 (c : Dev nD) : W1 m ρ c (Proc.devRef .tc main_arg6) = a6 m c := by
  show StableHlo.after hostOps0 (W0 m ρ c) (Proc.devRef .tc main_arg6) = _
  after_results
/-- The bias row the dense layer reads is the bias vector reshaped. -/
theorem W1_v0 (c : Dev nD) :
    W1 m ρ c (Proc.devRef .tc main_v0) = shapeCast S1x128 (a2 m c) shapeCasts_S128_S1x128 := by
  show StableHlo.after hostOps0 (W0 m ρ c) (Proc.devRef .tc main_v0) = _
  after_results
  rfl

/-! ## After the dense layer -/

/-- The first pallas_call's array is the reference's h = x · theta + bias. -/
theorem W2_v1 (c : Dev nD) :
    W2 m ρ c (Proc.devRef .tc main_v1) = Cert.ReferenceIdeal.Read.val_main_v3 (a0 m c) (a1 m c) (a2 m c) := by
  refine (W2_arr m ρ c 3).trans ((Cert.KernelIdeal.Linear.array_eq (V1 m ρ) c).trans ?_)
  show Cert.KernelIdeal.Linear.layer (W1 m ρ c (Proc.devRef .tc main_arg0)) (W1 m ρ c (Proc.devRef .tc main_arg1))
    (W1 m ρ c (Proc.devRef .tc main_v0)) = _
  rw [W1_arg0, W1_arg1, W1_v0,
    Cert.Proof.Layout.reshape_row_eq_broadcastInDim (a2 m c) shapeCasts_S128_S1x128 Cert.ReferenceIdeal.Facts₀.bcast_S128_S1x128_1]
  rfl

theorem W2_arg3 (c : Dev nD) : W2 m ρ c (Proc.devRef .tc main_arg3) = a3 m c :=
  (W2_of_ne m ρ c main_arg3 (by decide)).trans (W1_arg3 m ρ c)
theorem W2_arg4 (c : Dev nD) : W2 m ρ c (Proc.devRef .tc main_arg4) = a4 m c :=
  (W2_of_ne m ρ c main_arg4 (by decide)).trans (W1_arg4 m ρ c)
theorem W2_arg5 (c : Dev nD) : W2 m ρ c (Proc.devRef .tc main_arg5) = a5 m c :=
  (W2_of_ne m ρ c main_arg5 (by decide)).trans (W1_arg5 m ρ c)
theorem W2_arg6 (c : Dev nD) : W2 m ρ c (Proc.devRef .tc main_arg6) = a6 m c :=
  (W2_of_ne m ρ c main_arg6 (by decide)).trans (W1_arg6 m ρ c)

/-! ## After the second stretch: the hyperedge features -/

/-- The hyperedge features the attention call reads are the reference's e2: the same host chain over the same h. -/
theorem W3_v58 (c : Dev nD) :
    W3 m ρ c (Proc.devRef .tc main_v58) = Cert.ReferenceIdeal.Read.val_main_v60 (a0 m c) (a1 m c) (a2 m c) (a5 m c) (a6 m c) := by
  show StableHlo.after hostOps1 (W2 m ρ c) (Proc.devRef .tc main_v58) = _
  after_results_simp
  rw [W2_v1, W2_arg5, W2_arg6]
  rfl
/-- The one-entry bias the attention call reads is the bias vector reshaped. -/
theorem W3_v59 (c : Dev nD) :
    W3 m ρ c (Proc.devRef .tc main_v59) = shapeCast S1x1 (a4 m c) shapeCasts_S1_S1x1 := by
  show StableHlo.after hostOps1 (W2 m ρ c) (Proc.devRef .tc main_v59) = _
  after_results_simp
  rw [W2_arg4]
  rfl
theorem W3_arg3 (c : Dev nD) : W3 m ρ c (Proc.devRef .tc main_arg3) = a3 m c := by
  show StableHlo.after hostOps1 (W2 m ρ c) (Proc.devRef .tc main_arg3) = _
  after_results_simp
  exact W2_arg3 m ρ c
theorem W3_arg5 (c : Dev nD) : W3 m ρ c (Proc.devRef .tc main_arg5) = a5 m c := by
  show StableHlo.after hostOps1 (W2 m ρ c) (Proc.devRef .tc main_arg5) = _
  after_results_simp
  exact W2_arg5 m ρ c
theorem W3_arg6 (c : Dev nD) : W3 m ρ c (Proc.devRef .tc main_arg6) = a6 m c := by
  show StableHlo.after hostOps1 (W2 m ρ c) (Proc.devRef .tc main_arg6) = _
  after_results_simp
  exact W2_arg6 m ρ c

/-! ## After the attention call -/

/-- The second pallas_call's array is the reference's w = 1 / (1 + exp (-(e2 · att_w + att_b))). -/
theorem W4_v60 (c : Dev nD) :
    W4 m ρ c (Proc.devRef .tc main_v60) = Cert.ReferenceIdeal.Read.val_main_v70 (a0 m c) (a1 m c) (a2 m c) (a3 m c) (a4 m c) (a5 m c) (a6 m c) := by
  refine (W4_arr m ρ c 3).trans ((Cert.KernelIdeal.Attention.array_eq (V3 m ρ) c).trans ?_)
  show Cert.KernelIdeal.Attention.weights (W3 m ρ c (Proc.devRef .tc main_v58)) (W3 m ρ c (Proc.devRef .tc main_arg3))
    (W3 m ρ c (Proc.devRef .tc main_v59)) = _
  rw [W3_v58, W3_arg3, W3_v59,
    Cert.Proof.Layout.reshape_row_eq_broadcastInDim (a4 m c) shapeCasts_S1_S1x1 Cert.ReferenceIdeal.Facts₀.bcast_S1_S1x1_1]
  rfl
/-- The call only reads the hyperedge features: they are as it found them. -/
theorem W4_v58 (c : Dev nD) :
    W4 m ρ c (Proc.devRef .tc main_v58) = Cert.ReferenceIdeal.Read.val_main_v60 (a0 m c) (a1 m c) (a2 m c) (a5 m c) (a6 m c) :=
  (W4_arr m ρ c 0).trans (((dat1 (V3 m ρ) c).arrAt_in 0 rfl _).trans ((A_eq1 (V3 m ρ) c 0).trans (W3_v58 m ρ c)))
theorem W4_arg5 (c : Dev nD) : W4 m ρ c (Proc.devRef .tc main_arg5) = a5 m c :=
  (W4_of_ne m ρ c main_arg5 (by decide)).trans (W3_arg5 m ρ c)
theorem W4_arg6 (c : Dev nD) : W4 m ρ c (Proc.devRef .tc main_arg6) = a6 m c :=
  (W4_of_ne m ρ c main_arg6 (by decide)).trans (W3_arg6 m ρ c)

/-! ## After the third stretch: numerator and denominator -/

/-- The numerator the quotient call reads is the reference's. -/
theorem W5_v79 (c : Dev nD) :
    W5 m ρ c (Proc.devRef .tc main_v79) = Cert.ReferenceIdeal.Read.val_main_v89 (a0 m c) (a1 m c) (a2 m c) (a3 m c) (a4 m c) (a5 m c) (a6 m c) := by
  show StableHlo.after hostOps2 (W4 m ρ c) (Proc.devRef .tc main_v79) = _
  after_results_simp
  rw [W4_v60, W4_v58, W4_arg5, W4_arg6]
  rfl
/-- The denominator the quotient call reads is the reference's. -/
theorem W5_v82 (c : Dev nD) :
    W5 m ρ c (Proc.devRef .tc main_v82) = Cert.ReferenceIdeal.Read.val_main_v92 (a0 m c) (a1 m c) (a2 m c) (a3 m c) (a4 m c) (a5 m c) (a6 m c) := by
  show StableHlo.after hostOps2 (W4 m ρ c) (Proc.devRef .tc main_v82) = _
  after_results_simp
  rw [W4_v60, W4_arg5, W4_arg6]
  rfl

/-! ## After the quotient call: the result -/

/-- THE RESULT: the third pallas_call's array is the reference's last stage of the seven launch arrays. -/
theorem W6_v83 (c : Dev nD) :
    W6 m ρ c (Proc.devRef .tc main_v83) = Cert.ReferenceIdeal.Read.val_main_v96 (a0 m c) (a1 m c) (a2 m c) (a3 m c) (a4 m c) (a5 m c) (a6 m c) := by
  refine (W6_arr m ρ c 2).trans ((Cert.KernelIdeal.Normalize.array_eq (V5 m ρ) c).trans ?_)
  show Cert.KernelIdeal.Normalize.quotient (W5 m ρ c (Proc.devRef .tc main_v79)) (W5 m ρ c (Proc.devRef .tc main_v82)) = _
  rw [W5_v79, W5_v82]
  rfl

end Cert.KernelIdeal.Outcome

end
-- ==== Proof.lean ====
/-
  A three-stage hypergraph convolution with attention, against its plain jnp reference, over the extended reals.

  Both programs compute, from node features x [100000, 128], weights theta, bias, an attention column att_w with bias
  att_b, and 800000 (node, hyperedge) incidences:
    h   = x · theta + bias
    e   = mean over each hyperedge's incidences of h[node];   h' = mean over each node's incidences of e[edge];
    e2  = mean over each hyperedge's incidences of h'[node]
    w   = 1 / (1 + exp (-(e2 · att_w + att_b)))
    out = (Σ over a node's incidences of w[edge] · e2[edge]) / max(Σ over its incidences of w[edge], 1e-12).
  The gathers, scatter-sums, counts and divisions in between are the same host operations, in the same order, in the
  two programs. The kernel program replaces three dense stretches by pallas_calls: h (a matrix product on the matrix
  unit with operands narrowed on the way in, plus the bias row), w (the same with the logistic function on top) and
  the final quotient, each worked in blocks of 5000 rows. On the extended reals a change of float format is the
  identity, a product into a zero accumulator is the host's product, the logistic function is 1 / (1 + exp (-z)) in
  the host's own operations, the kernel's division is the host's, and both sides read the same word for 1e-12; the
  blocks tile their arrays. So each call's array is the reference's stage, whole (Proof/Linear.lean,
  Proof/Attention.lean, Proof/Normalize.lean), the buffers between the calls hold the reference's stages
  (Proof/KernelValue.lean), and the result is the reference's result of launch arrays that agree. No law of
  arithmetic beyond 0 + s = s is used, so the precondition is never opened.

  The three frames are the generated ones (the reference's is its generated run with the result dropped); the ideal
  pass rewrote nothing, so there is nothing to preserve.
-/
import proofs.«168675_j34883724378624_1_alg».proof.Defs
import proofs.«168675_j34883724378624_1_alg».proof.Proof.Gen.Kernel
import proofs.«168675_j34883724378624_1_alg».proof.Proof.Gen.Kernel.Skeleton
import proofs.«168675_j34883724378624_1_alg».proof.Proof.Gen.Kernel.Launch
import proofs.«168675_j34883724378624_1_alg».proof.Proof.Gen.Kernel.Points
import proofs.«168675_j34883724378624_1_alg».proof.Proof.Gen.Kernel.Frame
import proofs.«168675_j34883724378624_1_alg».proof.Proof.Gen.KernelIdeal
import proofs.«168675_j34883724378624_1_alg».proof.Proof.Gen.KernelIdeal.Skeleton
import proofs.«168675_j34883724378624_1_alg».proof.Proof.Gen.KernelIdeal.Launch
import proofs.«168675_j34883724378624_1_alg».proof.Proof.Gen.KernelIdeal.Points
import proofs.«168675_j34883724378624_1_alg».proof.Proof.Gen.KernelIdeal.Frame
import proofs.«168675_j34883724378624_1_alg».proof.Proof.Gen.ReferenceIdeal
import proofs.«168675_j34883724378624_1_alg».proof.Proof.Gen.Pre_finite_inputs
import proofs.«168675_j34883724378624_1_alg».proof.Proof.Gen.ReferenceIdeal.Run
import proofs.«168675_j34883724378624_1_alg».proof.Proof.Gen.ReferenceIdeal.Read
import proofs.«168675_j34883724378624_1_alg».proof.Proof.KernelRun
import proofs.«168675_j34883724378624_1_alg».proof.Proof.KernelValue
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From launch arrays that agree the two programs end with the same result: the kernel program's last buffer is the
    reference's last stage of its launch arrays, and the reference's run ends at that stage of its own. -/
theorem algebraic : Cert.algebraic_KernelIdeal_ReferenceIdeal := by
  intro m ρ m' ρ' _ hagree
  refine ⟨fun c => Cert.KernelIdeal.Gen.W6 m ρ c (Proc.devRef .tc Cert.KernelIdeal.main_v83),
    Cert.KernelIdeal.Result.run_result m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v96 m' c
    = Cert.KernelIdeal.Gen.W6 m ρ c (Proc.devRef .tc Cert.KernelIdeal.main_v83)
  obtain ⟨h0, h1, h2, h3, h4, h5, h6⟩ := hagree c
  rw [Cert.ReferenceIdeal.Read.val_main_v96_eq, Cert.KernelIdeal.Outcome.W6_v83, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
